-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024 : Shape := ⟨2, ![2, 1024]⟩
abbrev S65x128 : Shape := ⟨2, ![65, 128]⟩
abbrev S128 : Shape := ⟨1, ![128]⟩
abbrev S_ : Shape := ⟨0, ![]⟩

class Facts : Prop where
  bcast_S_S65x128 : S_.BroadcastsInDim S65x128 (![] : Fin 0 → Fin S65x128.rank)
  reducesTo_S65x128_S_d0_1 : S65x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S2x1024 32) (main_arg1 : FVec F S65x128 .f32) (main_arg2 : FVec F S128 .f32) : IVec S_ 1 :=
  let main_v0 : FVec F S65x128 .f32 := Host.absf main_arg1
  let main_cst : FVec F S_ .f32 := constant S_ .f32 0x7F800000#32
  let main_v1 : FVec F S65x128 .f32 := broadcastInDim S65x128 ![] bcast_S_S65x128 main_cst
  let main_v2 : IVec S65x128 1 := cmpf .olt main_v0 main_v1
  let main_c : IVec S_ 1 := constantI S_ 1 1#1
  let main_v3 : IVec S_ 1 := (fun x v => Host.reduce IntOp.andi x v reducesTo_S65x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S2x1024 : Shape := ⟨2, ![2, 1024]⟩
abbrev S65x128 : Shape := ⟨2, ![65, 128]⟩
abbrev S128 : Shape := ⟨1, ![128]⟩
abbrev S2x1024x1 : Shape := ⟨3, ![2, 1024, 1]⟩
abbrev S2x1x1024 : Shape := ⟨3, ![2, 1, 1024]⟩
abbrev S1x128 : Shape := ⟨2, ![1, 128]⟩
abbrev S_ : Shape := ⟨0, ![]⟩
abbrev S128x128 : Shape := ⟨2, ![128, 128]⟩
abbrev S1 : Shape := ⟨1, ![1]⟩
abbrev S256x128 : Shape := ⟨2, ![256, 128]⟩
abbrev S2x1024x1024x128 : Shape := ⟨4, ![2, 1024, 1024, 128]⟩
abbrev S1x128x1 : Shape := ⟨3, ![1, 128, 1]⟩
abbrev S1x1x128 : Shape := ⟨3, ![1, 1, 128]⟩
abbrev S1x128x128x128 : Shape := ⟨4, ![1, 128, 128, 128]⟩
abbrev S128x1 : Shape := ⟨2, ![128, 1]⟩
abbrev S128x128x128 : Shape := ⟨3, ![128, 128, 128]⟩
abbrev S128x128x1 : Shape := ⟨3, ![128, 128, 1]⟩
abbrev S128x128x256 : Shape := ⟨3, ![128, 128, 256]⟩
abbrev S16384x256 : Shape := ⟨2, ![16384, 256]⟩
abbrev S16384x128 : Shape := ⟨2, ![16384, 128]⟩

abbrev nBuf : Space → Nat
  | .hbm => 19
  | .vmem => 7
  | .smem => 0
  | _ => 0

abbrev bufTy : (tb : Table) → Fin (tcTables nBuf tb) → BufTy
  | .hbm, ⟨0, _⟩ => ⟨S2x1024, .i32⟩
  | .hbm, ⟨1, _⟩ => ⟨S65x128, .f32⟩
  | .hbm, ⟨2, _⟩ => ⟨S128, .f32⟩
  | .hbm, ⟨3, _⟩ => ⟨S2x1024x1, .i32⟩
  | .hbm, ⟨4, _⟩ => ⟨S2x1x1024, .i32⟩
  | .hbm, ⟨5, _⟩ => ⟨S1x128, .f32⟩
  | .hbm, ⟨6, _⟩ => ⟨S65x128, .f32⟩
  | .hbm, ⟨7, _⟩ => ⟨S65x128, .f32⟩
  | .hbm, ⟨8, _⟩ => ⟨S_, .f32⟩
  | .hbm, ⟨9, _⟩ => ⟨S128x128, .f32⟩
  | .hbm, ⟨10, _⟩ => ⟨S_, .i32⟩
  | .hbm, ⟨11, _⟩ => ⟨S1, .i32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S256x128, .bf16⟩
  | .hbm, ⟨18, _⟩ => ⟨S2x1024x1024x128, .f32⟩
  | .local _ .vmem, ⟨0, _⟩ => ⟨S1x128x1, .i32⟩
  | .local _ .vmem, ⟨1, _⟩ => ⟨S1x128x1, .i32⟩
  | .local _ .vmem, ⟨2, _⟩ => ⟨S1x1x128, .i32⟩
  | .local _ .vmem, ⟨3, _⟩ => ⟨S1x1x128, .i32⟩
  | .local _ .vmem, ⟨4, _⟩ => ⟨S256x128, .bf16⟩
  | .local _ .vmem, ⟨5, _⟩ => ⟨S1x128x128x128, .f32⟩
  | .local _ .vmem, ⟨6, _⟩ => ⟨S1x128x128x128, .f32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S2x1024_S2x1024x1 : S2x1024.ShapeCasts S2x1024x1
  shapeCasts_S2x1024_S2x1x1024 : S2x1024.ShapeCasts S2x1x1024
  bcast_S128_S1x128_1 : S128.BroadcastsInDim S1x128 (![1] : Fin 1 → Fin S1x128.rank)
  bcast_S1x128_S65x128_0_1 : S1x128.BroadcastsInDim S65x128 (![0, 1] : Fin 2 → Fin S65x128.rank)
  bcast_S_S128x128 : S_.BroadcastsInDim S128x128 (![] : Fin 0 → Fin S128x128.rank)
  bcast_S_S1 : S_.BroadcastsInDim S1 (![] : Fin 0 → Fin S1.rank)
  bitsLt_bf16_f32 : FTy.bits .bf16 < FTy.bits .f32
  concatenates_S128x128_S128x128_S256x128_d0 : Shape.Concatenates [S128x128, S128x128] S256x128 0
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S128x1_S128x128 : S128x1.Broadcasts S128x128
  broadcasts_S1x128_S128x128 : S1x128.Broadcasts S128x128
  iota_S128x128x128_d2_w32 : S128x128x128.Iotas .tc 32 [2]
  shapeCasts_S128x128_S128x128x1 : S128x128.ShapeCasts S128x128x1
  broadcasts_S128x128x1_S128x128x128 : S128x128x1.Broadcasts S128x128x128
  natLt_1_32 : 1 < 32
  concatenates_S128x128x128_S128x128x128_S128x128x256_d2 : Shape.Concatenates [S128x128x128, S128x128x128] S128x128x256 2
  shapeCasts_S128x128x256_S16384x256 : S128x128x256.ShapeCasts S16384x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S16384x128_S128x128x128 : S16384x128.ShapeCasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  scatter_S128x128_S1_S65x128_01_n_0_0_wf : ScatterDims.WF S128x128 S1 S65x128 [0, 1] [] [0] 0
  dot_S16384x256_S256x128_S16384x128_1_0_0_1_n_n_wf : DotDims.WF S16384x256 S256x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1.size a ≤ S2x1024x1.size a
  hwx0_0 : ∀ i : grid0.Coords, EltTy.bits .i32 = 32 ∨ (Rect.block (s := S2x1024x1) S1x128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x1024.size a
  hwx0_1 : ∀ i : grid0.Coords, EltTy.bits .i32 = 32 ∨ (Rect.block (s := S2x1x1024) S1x1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x128.size a ≤ S2x1024x1024x128.size a
  hwx0_3 : ∀ i : grid0.Coords, EltTy.bits .f32 = 32 ∨ (Rect.block (s := S2x1024x1024x128) S1x128x128x128.size (cc0_transform_3 i) (hinb0_3 i)).WholeWords (EltTy.packing .f32)

variable [Facts₀]

def scatter_S128x128_S1_S65x128_01_n_0_0 : ScatterDims S128x128 S1 S65x128 where
  updateWindowDims := [0, 1]
  insertedWindowDims := []
  scatterDimsToOperandDims := [0]
  indexVectorDim := 0
  wf := scatter_S128x128_S1_S65x128_01_n_0_0_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

abbrev win0_0 : Pipeline.Window sig grid0 :=
  Pipeline.Window.ofSpec (Memref.whole main_v0) S1x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1024 : Shape := ⟨2, ![2, 1024]⟩
abbrev S65x128 : Shape := ⟨2, ![65, 128]⟩
abbrev S128 : Shape := ⟨1, ![128]⟩
abbrev S2x1024x1 : Shape := ⟨3, ![2, 1024, 1]⟩
abbrev S2x1x1024 : Shape := ⟨3, ![2, 1, 1024]⟩
abbrev S2x1024x1024 : Shape := ⟨3, ![2, 1024, 1024]⟩
abbrev S_ : Shape := ⟨0, ![]⟩
abbrev S2x1024x1024x1 : Shape := ⟨4, ![2, 1024, 1024, 1]⟩
abbrev S2x1024x1024x128 : Shape := ⟨4, ![2, 1024, 1024, 128]⟩
abbrev S1x1x1x128 : Shape := ⟨4, ![1, 1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x1024, .i32⟩
  | .hbm, ⟨1, _⟩ => ⟨S65x128, .f32⟩
  | .hbm, ⟨2, _⟩ => ⟨S128, .f32⟩
  | .hbm, ⟨3, _⟩ => ⟨S2x1024x1, .i32⟩
  | .hbm, ⟨4, _⟩ => ⟨S2x1x1024, .i32⟩
  | .hbm, ⟨5, _⟩ => ⟨S2x1024x1024, .i32⟩
  | .hbm, ⟨6, _⟩ => ⟨S2x1024x1024, .i32⟩
  | .hbm, ⟨7, _⟩ => ⟨S2x1024x1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x1024x1024, .i32⟩
  | .hbm, ⟨12, _⟩ => ⟨S2x1024x1024, .i32⟩
  | .hbm, ⟨13, _⟩ => ⟨S_, .i32⟩
  | .hbm, ⟨14, _⟩ => ⟨S2x1024x1024, .i32⟩
  | .hbm, ⟨15, _⟩ => ⟨S2x1024x1024, .i32⟩
  | .hbm, ⟨16, _⟩ => ⟨S_, .i32⟩
  | .hbm, ⟨17, _⟩ => ⟨S2x1024x1024, .i32⟩
  | .hbm, ⟨18, _⟩ => ⟨S2x1024x1024, .i32⟩
  | .hbm, ⟨19, _⟩ => ⟨S_, .i32⟩
  | .hbm, ⟨20, _⟩ => ⟨S2x1024x1024, .i32⟩
  | .hbm, ⟨21, _⟩ => ⟨S2x1024x1024, .i1⟩
  | .hbm, ⟨22, _⟩ => ⟨S_, .i32⟩
  | .hbm, ⟨23, _⟩ => ⟨S2x1024x1024, .i32⟩
  | .hbm, ⟨24, _⟩ => ⟨S2x1024x1024, .i32⟩
  | .hbm, ⟨25, _⟩ => ⟨S2x1024x1024, .i32⟩
  | .hbm, ⟨26, _⟩ => ⟨S2x1024x1024x1, .i32⟩
  | .hbm, ⟨27, _⟩ => ⟨S2x1024x1024x128, .f32⟩
  | .hbm, ⟨28, _⟩ => ⟨S1x1x1x128, .f32⟩
  | .hbm, ⟨29, _⟩ => ⟨S2x1024x1024x128, .f32⟩
  | .hbm, ⟨30, _⟩ => ⟨S2x1024x1024x128, .f32⟩
  | _, _ => ⟨S2x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S2x1024_S2x1024x1_0_1 : S2x1024.BroadcastsInDim S2x1024x1 (![0, 1] : Fin 2 → Fin S2x1024x1.rank)
  bcast_S2x1024_S2x1x1024_0_2 : S2x1024.BroadcastsInDim S2x1x1024 (![0, 2] : Fin 2 → Fin S2x1x1024.rank)
  bcast_S2x1024x1_S2x1024x1024_0_1_2 : S2x1024x1.BroadcastsInDim S2x1024x1024 (![0, 1, 2] : Fin 3 → Fin S2x1024x1024.rank)
  bcast_S2x1x1024_S2x1024x1024_0_1_2 : S2x1x1024.BroadcastsInDim S2x1024x1024 (![0, 1, 2] : Fin 3 → Fin S2x1024x1024.rank)
  bcast_S_S2x1024x1024 : S_.BroadcastsInDim S2x1024x1024 (![] : Fin 0 → Fin S2x1024x1024.rank)
  bcast_S2x1024x1024_S2x1024x1024x1_0_1_2 : S2x1024x1024.BroadcastsInDim S2x1024x1024x1 (![0, 1, 2] : Fin 3 → Fin S2x1024x1024x1.rank)
  bcast_S128_S1x1x1x128_3 : S128.BroadcastsInDim S1x1x1x128 (![3] : Fin 1 → Fin S1x1x1x128.rank)
  bcast_S1x1x1x128_S2x1024x1024x128_0_1_2_3 : S1x1x1x128.BroadcastsInDim S2x1024x1024x128 (![0, 1, 2, 3] : Fin 4 → Fin S2x1024x1024x128.rank)
  gather_S65x128_S2x1024x1024x1_S2x1024x1024x128_3_0_n_n_0_3_1128_wf : GatherDims.WF S65x128 S2x1024x1024x1 S2x1024x1024x128 [3] [0] [] [0] [] 3 ![1, 128]

variable [Facts₀]

def gather_S65x128_S2x1024x1024x1_S2x1024x1024x128_3_0_n_n_0_3_1128 : GatherDims S65x128 S2x1024x1024x1 S2x1024x1024x128 where
  offsetDims := [3]
  collapsedSliceDims := [0]
  operandBatchingDims := []
  startIndicesBatchingDims := []
  startIndexMap := [0]
  indexVectorDim := 3
  sliceSizes := ![1, 128]
  wf := gather_S65x128_S2x1024x1024x1_S2x1024x1024x128_3_0_n_n_0_3_1128_wf

class Facts : Prop extends Facts₀ where

variable [Facts]
-- ==== Proof.Finite.lean ====
/-
  What the precondition says: every entry of the table and of the bias is a real number.

  The precondition is the conjunction of two tests, one per float input: all entries x satisfy |x| < +infinity,
  where |x| is max x (-x) on the extended reals and +infinity is the float pattern 0x7F800000. An extended real
  whose absolute value is below +infinity is neither +infinity nor -infinity: it is a real number.
-/
import proofs.«402599_j56358560858587_4_alg».proof.Pre_finite_inputs
import proofs.«402599_j56358560858587_4_alg».proof.Proof.Gen.Pre_finite_inputs
import Idealize.ShloMosaic.Lib.ValueIdx
import Idealize.ShloMosaic.Lib.ReduceAll
import Idealize.ShloMosaic.PureOps.Ideal

noncomputable section

namespace Cert.RelPos

open Idealize.ShloMosaic

/-- An extended real that is a real number. -/
def IsFin (x : EReal) : Prop := ∃ r : ℝ, x = (r : EReal)

/-- A real number minus itself is zero (on the extended reals this fails at the infinities). -/
theorem IsFin.sub_self {x : EReal} (h : IsFin x) : x - x = 0 := by
  obtain ⟨r, rfl⟩ := h
  rw [← EReal.coe_sub, _root_.sub_self, EReal.coe_zero]

theorem IsFin.add {x y : EReal} (hx : IsFin x) (hy : IsFin y) : IsFin (x + y) := by
  obtain ⟨r, rfl⟩ := hx
  obtain ⟨s, rfl⟩ := hy
  exact ⟨r + s, (EReal.coe_add r s).symm⟩

theorem isFin_zero : IsFin 0 := ⟨0, EReal.coe_zero.symm⟩

/-- The float pattern 0x7F800000 is +infinity. -/
theorem inf_pattern : Ideal.ofBits .f32 0x7F800000#32 = (⊤ : EReal) := by
  simp [Ideal.ofBits, Ideal.ieee]

/-- An extended real whose absolute value compares below +infinity is a real number. -/
theorem isFin_of_abs_lt (x : EReal) (h : Ideal.cmp .olt (max x (-x)) (Ideal.ofBits .f32 0x7F800000#32) = 1#1) : IsFin x := by
  rw [inf_pattern] at h
  have hlt : max x (-x) < ⊤ := by
    by_contra hc
    have h0 : Ideal.cmp .olt (max x (-x)) ⊤ = 0#1 := by
      show BitVec.ofBool (decide (max x (-x) < ⊤)) = 0#1
      rw [decide_eq_false hc]
      rfl
    rw [h0] at h
    exact absurd h (by decide)
  induction x using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- The precondition at the extended-real instance: every entry of the two float inputs is a real number. -/
theorem finite_of_pre (a0 : IVec Cert.Pre_finite_inputs.S2x1024 32) (a1 : FVec Ideal Cert.Pre_finite_inputs.S65x128 .f32)
    (a2 : FVec Ideal Cert.Pre_finite_inputs.S128 .f32)
    (h : Cert.Pre_finite_inputs.fn (F := Ideal) a0 a1 a2 = fun _ => 1#1) :
    (∀ i, IsFin (a1 i)) ∧ (∀ i, IsFin (a2 i)) := by
  have h0 := congrFun h ValueIdx.ix0
  dsimp only [Cert.Pre_finite_inputs.fn] at h0
  obtain ⟨h1, h2⟩ := IntOp.andi_eq_one.1 h0
  constructor
  · intro i
    exact isFin_of_abs_lt (a1 i) (Host.reduce_andi_all _ _ _ _ _ h1 i)
  · intro i
    exact isFin_of_abs_lt (a2 i) (Host.reduce_andi_all _ _ _ _ _ h2 i)

end Cert.RelPos

end
-- ==== Proof.Bins.lean ====
/-
  The arithmetic both programs share, free of either program's text.

  A relative position a - b of two 32-bit words is clipped to [-32, 32] (a signed maximum with -32, then a signed
  minimum with 32) and shifted by 32: the result, a "bin", is a word whose value lies in [0, 64], whatever a and b
  are and however their difference wraps. A bin picks a row of a table in two ways: directly, as a row number, or
  through a ONE-HOT row of weights - 1 where the column number equals the bin, 0 elsewhere - contracted against the
  table. The second way, with the one-hot row written twice side by side and contracted against a table of 256
  rows whose upper half is zero, gives the table's row at the bin: every other term of the sum is 0 times an
  entry, or 1 times 0.
-/
import Idealize.ShloMosaic.Lib.ValueIdx
import Idealize.ShloMosaic.PureOps.Ideal

noncomputable section

open scoped BigOperators

namespace Cert.RelPos

open Idealize.ShloMosaic

/-- The bin of two positions: their difference clipped to [-32, 32], plus 32, in 32-bit words. -/
def bin (a b : BitVec 32) : BitVec 32 :=
  IntOp.addi (IntOp.minsi 32#32 (IntOp.maxsi 4294967264#32 (IntOp.subi a b))) 32#32

/-- A word between -32 and 32 (read signed), plus 32, is a word below 65 (read unsigned). -/
theorem shift_lt (e : BitVec 32) (h1 : -32 ≤ e.toInt) (h2 : e.toInt ≤ 32) : (e + 32#32).toNat < 65 := by
  have he := e.isLt
  rw [BitVec.toInt_eq_toNat_cond] at h1 h2
  rw [BitVec.toNat_add]
  show (e.toNat + 32) % 2 ^ 32 < 65
  split at h1
  · rw [if_pos (by assumption)] at h2
    omega
  · rw [if_neg (by assumption)] at h2
    omega

/-- The clip: a signed maximum with -32 then a signed minimum with 32 lies in [-32, 32]. -/
theorem clip_bounds (d : BitVec 32) :
    -32 ≤ (IntOp.minsi 32#32 (IntOp.maxsi 4294967264#32 d)).toInt
      ∧ (IntOp.minsi 32#32 (IntOp.maxsi 4294967264#32 d)).toInt ≤ 32 := by
  have hm : (4294967264#32 : BitVec 32).toInt = -32 := by decide
  have hp : (32#32 : BitVec 32).toInt = 32 := by decide
  unfold IntOp.minsi IntOp.maxsi
  by_cases c1 : d.slt 4294967264#32 = true
  · rw [if_pos c1]
    have : ¬ ((32#32 : BitVec 32).slt 4294967264#32 = true) := by decide
    rw [if_neg this, hm]
    omega
  · rw [if_neg c1]
    have c1' : ¬ d.toInt < -32 := by
      rw [← hm]; intro h; exact c1 (BitVec.slt_iff_toInt_lt.mpr h)
    by_cases c2 : (32#32 : BitVec 32).slt d = true
    · rw [if_pos c2, hp]; omega
    · rw [if_neg c2]
      have c2' : ¬ (32 : Int) < d.toInt := by
        rw [← hp]; intro h; exact c2 (BitVec.slt_iff_toInt_lt.mpr h)
      omega

/-- A bin is below 65. -/
theorem bin_lt (a b : BitVec 32) : (bin a b).toNat < 65 := by
  unfold bin IntOp.addi
  exact shift_lt _ (clip_bounds _).1 (clip_bounds _).2

/-- The row of the 65-row table a bin names. -/
def binRow (a b : BitVec 32) : Fin 65 := ⟨(bin a b).toNat, bin_lt a b⟩

/-- A one-hot weight: the 1-bit answer of "d equals k" widened to 32 bits and converted to a float, as an extended
    real. -/
def hot (d k : BitVec 32) : EReal := FloatOps.sitofp (F := Ideal) .f32 ((IntOp.cmpi .eq d k).setWidth 32)

theorem hot_self (d : BitVec 32) : hot d d = 1 := by
  unfold hot IntOp.cmpi
  have : (BitVec.ofBool (d == d)).setWidth 32 = 1#32 := by
    rw [beq_self_eq_true]; decide
  rw [this]
  show (((1#32 : BitVec 32).toInt : ℝ) : EReal) = 1
  have : (1#32 : BitVec 32).toInt = 1 := by decide
  rw [this]; norm_num

theorem hot_ne {d k : BitVec 32} (h : d ≠ k) : hot d k = 0 := by
  unfold hot IntOp.cmpi
  have : (BitVec.ofBool (d == k)).setWidth 32 = 0#32 := by
    rw [beq_eq_false_iff_ne.mpr h]; decide
  rw [this]
  show (((0#32 : BitVec 32).toInt : ℝ) : EReal) = 0
  have : (0#32 : BitVec 32).toInt = 0 := by decide
  rw [this]; norm_num

/-- A word below 65 equals the word of a column number below 128 exactly when the two numbers agree. -/
theorem eq_ofNat_iff {d : BitVec 32} (hd : d.toNat < 65) (k : Nat) (hk : k < 128) : d = BitVec.ofNat 32 k ↔ d.toNat = k := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- THE CONTRACTION: the one-hot row of a word d below 65, written twice side by side (column k of 256 carries the
    weight of column k mod 128), contracted against 256 entries whose upper 128 are zero, is the entry at d. -/
theorem onehot_sum (d : BitVec 32) (hd : d.toNat < 65) (u : Fin 256 → EReal) (hu : ∀ k : Fin 256, 128 ≤ k.val → u k = 0) :
    ∑ k : Fin 256, hot d (BitVec.ofNat 32 (k.val % 128)) * u k = u ⟨d.toNat, by omega⟩ := by
  rw [Finset.sum_eq_single (⟨d.toNat, by omega⟩ : Fin 256)]
  · have : d = BitVec.ofNat 32 (d.toNat % 128) := by
      rw [Nat.mod_eq_of_lt (by omega)]
      exact (eq_ofNat_iff hd d.toNat (by omega)).mpr rfl
    rw [← this, hot_self, one_mul]
  · intro k _ hk
    by_cases hlow : k.val < 128
    · have hne : d ≠ BitVec.ofNat 32 (k.val % 128) := by
        rw [Nat.mod_eq_of_lt hlow]
        intro h
        apply hk
        apply Fin.ext
        exact ((eq_ofNat_iff hd k.val hlow).mp h).symm
      rw [hot_ne hne, zero_mul]
    · rw [hu k (by omega), mul_zero]
  · intro h
    exact absurd (Finset.mem_univ _) h

end Cert.RelPos

end
-- ==== Proof.LibCast3.lean ====
/-
  Four re-layouts of rank-2 and rank-3 arrays read at an entry, over coordinates (general: any sizes a, b, c).

  An [a, b, c] array and an [a*b, c] array hold the same entries in the same row-major order: row kk of the second is
  (kk / b, kk % b) of the first, and (g, r) of the first is row g*b + r of the second. An [a, c] array seen as [a, 1, c] keeps
  its entries; an [a, 1, c] array spread along the middle axis to [a, b, c] repeats entry (g, 0, n) at every (g, r, n).
-/
import Idealize.ShloMosaic.Lib.ValueIdx
import Idealize.ShloMosaic.Lib.ValueLayout
import Idealize.ShloMosaic.Lib.Pipeline.Value

noncomputable section

namespace Cert.LibCast3

open Idealize.ShloMosaic Idealize.ShloMosaic.ValueIdx

variable {α : Type}

/-- [a, b, c] seen as [m, c] with m = a * b: row kk is (kk / b, kk % b). -/
theorem cast_abc_mc {a b c m : ℕ} (hm : m = a * b) (hb : 0 < b) (x : (⟨3, ![a, b, c]⟩ : Shape).Idx → α)
    (h : (⟨3, ![a, b, c]⟩ : Shape).ShapeCasts ⟨2, ![m, c]⟩) (kk : Fin m) (n : Fin c) :
    shapeCast ⟨2, ![m, c]⟩ x h (ix2 kk n)
      = x (ix3 (⟨kk.val / b, Nat.div_lt_of_lt_mul (lt_of_lt_of_eq kk.isLt (hm.trans (Nat.mul_comm a b)))⟩ : Fin a)
            (⟨kk.val % b, Nat.mod_lt _ hb⟩ : Fin b) n) :=
  shapeCast_apply x h _ _ (by
    rw [Shape.rowMajor_val_three, Shape.rowMajor_val_two]
    show (kk.val / b * b + kk.val % b) * c + n.val = kk.val * c + n.val
    rw [Nat.div_add_mod'])

/-- [m, c] seen as [a, b, c] with m = a * b: (g, r) is row g * b + r. -/
theorem cast_mc_abc {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, by
            have hg := g.isLt; have hr := r.isLt; rw [hm]
            calc g.val * b + r.val < g.val * b + b := by omega
              _ = (g.val + 1) * b := by rw [Nat.add_mul, Nat.one_mul]
              _ ≤ a * b := Nat.mul_le_mul_right b hg⟩ : Fin m) n) :=
  shapeCast_apply x h _ _ (by
    rw [Shape.rowMajor_val_three, Shape.rowMajor_val_two]
    rfl)

/-- [a, c] seen as [a, 1, c] keeps its entries. -/
theorem cast_ac_a1c {a c : ℕ} (x : (⟨2, ![a, c]⟩ : Shape).Idx → α)
    (h : (⟨2, ![a, c]⟩ : Shape).ShapeCasts ⟨3, ![a, 1, c]⟩) (g : Fin a) (u : Fin 1) (n : Fin c) :
    shapeCast ⟨3, ![a, 1, c]⟩ x h (ix3 g u n) = x (ix2 g n) :=
  shapeCast_apply x h _ _ (by
    have hu : u.val = 0 := by omega
    rw [Shape.rowMajor_val_three, Shape.rowMajor_val_two]
    show g.val * c + n.val = (g.val * 1 + u.val) * c + n.val
    rw [hu, Nat.mul_one, Nat.add_zero])

/-- [a, 1, c] spread to [a, b, c] repeats (g, 0, n) along the middle axis. -/
theorem bcast_a1c_abc {a b c : ℕ} (hc : c ≠ 1) (ha : a ≠ 1) (v : (⟨3, ![a, 1, c]⟩ : Shape).Idx → α)
    (h : (⟨3, ![a, 1, c]⟩ : Shape).Broadcasts ⟨3, ![a, b, c]⟩) (g : Fin a) (r : Fin b) (n : Fin c) :
    broadcastTo ⟨3, ![a, b, c]⟩ v h (ix3 g r n) = v (ix3 g (0 : Fin 1) n) := by
  refine broadcastTo_apply v h (ix3 g r n) (ix3 g (0 : Fin 1) n) fun ax => ?_
  match ax with
  | ⟨0, _⟩ =>
    show g.val = if a = 1 then 0 else g.val
    rw [if_neg ha]
  | ⟨1, _⟩ => rfl
  | ⟨2, _⟩ =>
    show n.val = if c = 1 then 0 else n.val
    rw [if_neg hc]

end Cert.LibCast3

end
-- ==== Proof.LibDot.lean ====
/-
  A plain matrix product read at an entry, at the ideal instance, over ANY dimension-number record whose fields are
  the plain ones ([1] x [0] contracted, [0] and [1] kept, no batch axes): the kernel's matmul into a zero accumulator and
  the host's dot_general are both the sum over k of a(r, k) * b(k, c), with k ranging over Fin K.

  eq_plain: a record with the plain fields IS DotDims.plain (the well-formedness proof is a proposition).
  plain_sum: the contraction sum of the plain record, re-indexed through its one coordinate.
  matmul_zero_at / dotGeneral_at: the two products at (r, c); kmatmul_at / hdot_at: the same over the printed spellings.
-/
import Idealize.ShloMosaic.Lib.ValueIdx
import Idealize.ShloMosaic.PureOps.Ideal.Laws

noncomputable section

open scoped BigOperators

namespace Cert.LibDot

open Idealize.ShloMosaic Idealize.ShloMosaic.ValueIdx

variable {M K N : Nat}

/-- A record whose six lists are the plain ones is the plain record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

theorem plain_rank : (DotDims.plain M K N).contr.rank = 1 := rfl

theorem plain_size : (DotDims.plain M K N).contr.size ⟨0, by rw [plain_rank]; exact Nat.one_pos⟩ = K := rfl

/-- The left operand's index at output (r, c) and contraction position k is (r, k). -/
theorem plain_lhsIdx (r : Fin M) (c : Fin N) (k : Fin K) :
    (DotDims.plain M K N).lhsIdx (ix2 r c) ((contrEquiv1 (DotDims.plain M K N) K plain_rank plain_size).symm k) = ix2 r k := by
  funext ax
  apply Fin.ext
  match ax with
  | ⟨0, _⟩ => rfl
  | ⟨1, _⟩ =>
    exact ((DotDims.plain M K N).lhsIdx_val_of_single (cl := 1) rfl _ _).trans
      (contrEquiv1_symm_val (DotDims.plain M K N) K plain_rank plain_size k)

/-- The right operand's index at output (r, c) and contraction position k is (k, c). -/
theorem plain_rhsIdx (r : Fin M) (c : Fin N) (k : Fin K) :
    (DotDims.plain M K N).rhsIdx (ix2 r c) ((contrEquiv1 (DotDims.plain M K N) K plain_rank plain_size).symm k) = ix2 k c := by
  funext ax
  apply Fin.ext
  match ax with
  | ⟨0, _⟩ =>
    exact ((DotDims.plain M K N).rhsIdx_val_of_single (cr := 0) rfl _ _).trans
      (contrEquiv1_symm_val (DotDims.plain M K N) K plain_rank plain_size k)
  | ⟨1, _⟩ => rfl

/-- The plain record's contraction sum at (r, c) is the sum over k : Fin K of a(r, k) * b(k, c). -/
theorem plain_sum {φ₁ φ₂ : FTy} (a : FVec Ideal ⟨2, ![M, K]⟩ φ₁) (b : FVec Ideal ⟨2, ![K, N]⟩ φ₂) (r : Fin M) (c : Fin N) :
    (∑ k : (DotDims.plain M K N).contr.Idx,
        a ((DotDims.plain M K N).lhsIdx (ix2 r c) k) * b ((DotDims.plain M K N).rhsIdx (ix2 r c) k) : EReal)
      = ∑ k : Fin K, a (ix2 r k) * b (ix2 k c) := by
  rw [← Equiv.sum_comp (contrEquiv1 (DotDims.plain M K N) K plain_rank plain_size).symm]
  refine Finset.sum_congr rfl fun k _ => ?_
  rw [plain_lhsIdx, plain_rhsIdx]

/-- The kernel's matrix product into a zero accumulator, at (r, c). -/
theorem matmul_zero_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    FloatOps.matmul d prec a b (constant ⟨2, ![M, N]⟩ .f32 0x00000000#32) (ix2 r c) = ∑ k : Fin K, a (ix2 r k) * b (ix2 k c) := by
  subst hd
  rw [Ideal.matmul_constant_zero_apply]
  exact plain_sum a b r c

/-- The host's dot_general, at (r, c). -/
theorem dotGeneral_at {φ₁ φ₂ : FTy} (d : DotDims ⟨2, ![M, K]⟩ ⟨2, ![K, N]⟩ ⟨2, ![M, N]⟩) (hd : d = DotDims.plain M K N)
    (prec : Option ContractPrecision) (sched : HostSchedule) (a : FVec Ideal ⟨2, ![M, K]⟩ φ₁) (b : FVec Ideal ⟨2, ![K, N]⟩ φ₂)
    (r : Fin M) (c : Fin N) :
    FloatOps.dotGeneral d prec sched a b (ix2 r c) = ∑ k : Fin K, a (ix2 r k) * b (ix2 k c) := by
  subst hd
  rw [Ideal.dotGeneral_apply]
  exact plain_sum a b r c

/-- The same, spelt with the kernel's vector operation. -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) :=
  matmul_zero_at d hd prec a b r c

/-- The same, spelt with the host's operation. -/
theorem hdot_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    Host.dotGeneral d prec a b (ix2 r c) = ∑ k : Fin K, a (ix2 r k) * b (ix2 k c) :=
  dotGeneral_at d hd prec _ a b r c

end Cert.LibDot

end
-- ==== Proof.Payload.lean ====
/-
  What the kernel body stores, read at one entry.

  The body holds a column of 128 positions (its block of the positions seen as [1, 128, 1]) and a row of 128
  positions ([1, 1, 128]). Entry (p, q) of their 128 x 128 table of differences, clipped and shifted, is the bin of
  position p of the column and position q of the row. The body compares that bin with the column numbers 0..127
  (an iota along the last axis), turns the answers into floats 0 and 1, writes the 128 weights twice side by side
  (256 weights), lays the 128 x 128 rows of weights out as 16384 rows, multiplies by its 256 x 128 table into a
  zero accumulator, and lays the 16384 rows of the product out again as 128 x 128. So entry (p, q, c) of what it
  stores is the sum over k < 256 of the weight "bin = k mod 128" times entry (k, c) of the table.
-/
import proofs.«402599_j56358560858587_4_alg».proof.Proof.Gen.KernelIdeal.Skeleton
import proofs.«402599_j56358560858587_4_alg».proof.Proof.Bins
import proofs.«402599_j56358560858587_4_alg».proof.Proof.LibCast3
import proofs.«402599_j56358560858587_4_alg».proof.Proof.LibDot
import Idealize.ShloMosaic.Lib.ValueIdx
import Idealize.ShloMosaic.Lib.ValueLayout
import Idealize.ShloMosaic.Lib.Pipeline.Value

noncomputable section

open scoped BigOperators

namespace Cert.RelPos.Payload

open Cert.KernelIdeal Cert.KernelIdeal.Gen Idealize.ShloMosaic Idealize.ShloMosaic.ValueIdx Cert.RelPos

/-- A column [128, 1] spread along the rows of [128, 128]: entry (p, q) is the column's entry p. -/
theorem spread_col (v : IVec S128x1 32) (h : S128x1.Broadcasts S128x128) (p q : Fin 128) :
    broadcastTo S128x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row [1, 128] spread down the columns of [128, 128]: entry (p, q) is the row's entry q. -/
theorem spread_row (v : IVec S1x128 32) (h : S1x128.Broadcasts S128x128) (p q : Fin 128) :
    broadcastTo S128x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- A table [128, 128] seen as [128, 128, 1] keeps its entries. -/
theorem add_last (v : IVec S128x128 32) (h : S128x128.ShapeCasts S128x128x1) (p q : Fin 128) (z : Fin 1) :
    shapeCast S128x128x1 v h (ix3 p q z) = v (ix2 p q) :=
  shapeCast_apply v h _ _ (by
    rw [Shape.rowMajor_val_three, Shape.rowMajor_val_two]
    have hz : z.val = 0 := by omega
    show p.val * 128 + q.val = (p.val * 128 + q.val) * 1 + z.val
    omega)

/-- [128, 128, 1] spread along a last axis of 128: entry (p, q, k) is entry (p, q, 0). -/
theorem spread_last (v : IVec S128x128x1 32) (h : S128x128x1.Broadcasts S128x128x128) (p q k : Fin 128) :
    broadcastTo S128x128x128 v h (ix3 p q k) = v (ix3 p q (0 : Fin 1)) := by
  refine broadcastTo_apply v h (ix3 p q k) (ix3 p q (0 : Fin 1)) fun ax => ?_
  match ax with
  | ⟨0, _⟩ => rfl
  | ⟨1, _⟩ => rfl
  | ⟨2, _⟩ => rfl

/-- Two copies of [128, 128, 128] side by side along the last axis: entry (p, q, k), k < 256, is the copy's entry
    (p, q, k mod 128). -/
theorem twice_last {α : Type} (v : S128x128x128.Idx → α)
    (h : Shape.Concatenates [S128x128x128, S128x128x128] S128x128x256 (2 : Fin 3)) (p q : Fin 128) (k : Fin 256) :
    concatenate S128x128x256 2 [⟨S128x128x128, v⟩, ⟨S128x128x128, v⟩] h (ix3 p q k)
      = v (ix3 p q (⟨k.val % 128, Nat.mod_lt _ (by decide)⟩ : Fin 128)) := by
  by_cases hk : k.val < 128
  · refine concatenate_pair_apply_left (2 : Fin 3) v v h (ix3 p q k) rfl _ fun b => ?_
    match b with
    | ⟨0, _⟩ => rfl
    | ⟨1, _⟩ => rfl
    | ⟨2, _⟩ => exact Nat.mod_eq_of_lt hk
  · refine concatenate_pair_apply_right (2 : Fin 3) v v h (ix3 p q k) rfl rfl _ (fun b hb => ?_) ?_
    · match b with
      | ⟨0, _⟩ => rfl
      | ⟨1, _⟩ => rfl
      | ⟨2, _⟩ => exact absurd rfl hb
    · show k.val % 128 + 128 = k.val
      have := k.isLt
      omega

/-- The bin table: entry (p, q) of the clipped, shifted differences of a column and a row of positions. -/
theorem bins_apply (v1 : IVec S128x1 32) (v3 : IVec S1x128 32) (h1 : S128x1.Broadcasts S128x128) (h3 : S1x128.Broadcasts S128x128)
    (p q : Fin 128) :
    addi (minsi (broadcast S128x128 32#32) (maxsi (broadcast S128x128 4294967264#32) (subi (broadcastTo S128x128 v1 h1) (broadcastTo S128x128 v3 h3))))
        (broadcast S128x128 32#32) (ix2 p q)
      = bin (v1 (ix2 p (0 : Fin 1))) (v3 (ix2 (0 : Fin 1) q)) := by
  show IntOp.addi (IntOp.minsi 32#32 (IntOp.maxsi 4294967264#32 (IntOp.subi (broadcastTo S128x128 v1 h1 (ix2 p q)) (broadcastTo S128x128 v3 h3 (ix2 p q))))) 32#32 = _
  rw [spread_col, spread_row]
  rfl

/-- The weights: entry (p, q, k) of the floats made from "bin table = iota along the last axis". -/
theorem weights_apply (v12 : IVec S128x128 32) (hc : S128x128.ShapeCasts S128x128x1) (hb : S128x128x1.Broadcasts S128x128x128)
    (hi : S128x128x128.Iotas .tc 32 [(2 : Fin 3)]) (p q k : Fin 128) :
    (truncf .bf16 (sitofp (F := Ideal) .f32 (extui 32 (cmpi .eq (broadcastTo S128x128x128 (shapeCast S128x128x1 v12 hc) hb)
        (iota .tc S128x128x128 32 [(2 : Fin 3)] hi)) natLt_1_32)) bitsLt_bf16_f32 : FVec Ideal S128x128x128 .bf16) (ix3 p q k)
      = hot (v12 (ix2 p q)) (BitVec.ofNat 32 k.val) := by
  show FloatOps.sitofp (F := Ideal) .f32 ((IntOp.cmpi .eq (broadcastTo S128x128x128 (shapeCast S128x128x1 v12 hc) hb (ix3 p q k))
      (iota .tc S128x128x128 32 [(2 : Fin 3)] hi (ix3 p q k))).setWidth 32) = _
  rw [spread_last, add_last, iota_single_apply]
  rfl

/-- THE BODY'S STORE AT AN ENTRY: the sum over k < 256 of the weight "bin of column position p and row position q
    is k mod 128" times the table's entry (k, c). -/
theorem pay_apply (x0 : Vec Ideal S1x128x1 .i32) (x1 : Vec Ideal S1x1x128 .i32) (x2 : Vec Ideal S256x128 .bf16)
    (u : Fin 1) (p q c : Fin 128) :
    k0_pay1 (F := Ideal) x0 x1 x2 (ix4 u p q c)
      = ∑ k : Fin 256, hot (bin (x0 (ix3 (0 : Fin 1) p (0 : Fin 1))) (x1 (ix3 (0 : Fin 1) (0 : Fin 1) q)))
          (BitVec.ofNat 32 (k.val % 128)) * x2 (ix2 k c) := by
  unfold k0_pay1
  refine (shapeCast_abc_1abc_apply _ _ u p q c).trans ?_
  refine (LibCast3.cast_mc_abc (a := 128) (b := 128) (c := 128) (m := 16384) rfl _ _ p q c).trans ?_
  refine (LibDot.kmatmul_at (M := 16384) (K := 256) (N := 128) _ (LibDot.eq_plain _ rfl rfl rfl rfl rfl rfl) none _ _ _ c).trans ?_
  refine Finset.sum_congr rfl fun k _ => ?_
  congr 1
  · refine (LibCast3.cast_abc_mc (a := 128) (b := 128) (c := 256) (m := 16384) rfl (by decide) _ _ _ k).trans ?_
    have e1 : (⟨(p.val * 128 + q.val) / 128, by omega⟩ : Fin 128) = p := Fin.ext (by show (p.val * 128 + q.val) / 128 = p.val; omega)
    have e2 : (⟨(p.val * 128 + q.val) % 128, Nat.mod_lt _ (by decide)⟩ : Fin 128) = q := Fin.ext (by show (p.val * 128 + q.val) % 128 = q.val; omega)
    refine (congrArg₂ (fun a b => concatenate S128x128x256 2 _ _ (ix3 a b k)) e1 e2).trans ?_
    refine (twice_last _ _ p q k).trans ?_
    refine (weights_apply _ _ _ _ p q _).trans ?_
    refine congrArg (fun d => hot d _) ?_
    refine (bins_apply _ _ _ _ p q).trans ?_
    refine congrArg₂ bin ?_ ?_
    · exact shapeCast_1ab_ab_apply _ _ p (0 : Fin 1)
    · exact shapeCast_1ab_ab_apply _ _ (0 : Fin 1) q
  · exact congrFun (shapeCast_self x2 _) (ix2 k c)

end Cert.RelPos.Payload

end
-- ==== Proof.LibScatterSet.lean ====
/-
  The replacing scatter, entry by entry.

  The host's scatter runs through the update indices in row-major order; each update index
  either lands at one operand index or is dropped, and an update that lands overwrites the
  operand's entry there.  This file proves the two entrywise readings of the result when the
  combining function returns the update (a SET):

  * an operand index at which exactly one update index lands holds that update's value
    (`scatter_set_of_hit`);
  * an operand index at which no update index lands keeps the operand's value
    (`scatter_set_of_miss`).

  Both follow from one fact about left folds (`foldl_overwrite_miss`, `foldl_overwrite_hit`):
  if each step of a fold over a list overwrites the entry its element lands at and leaves every
  other entry alone, then the entry at `k` after the fold is the initial one when no element of
  the list lands at `k`, and is the value written by `a` when `a` is in the list, lands at `k`,
  and is the only element of the list that does.
-/
import Idealize.ShloMosaic.PureOps.ShapeOps

namespace Cert.LibScatterSet

open Idealize.ShloMosaic

/-! ### Left folds of overwriting steps -/

section Fold

variable {ι κ α : Type} (step : (κ → α) → ι → κ → α) (g : ι → Option κ) (v : ι → α)

/-- A fold of overwriting steps leaves alone every entry at which no element of the list lands:
    `g n` is where element `n` lands (if anywhere), a step at `n` changes only that entry. -/
theorem foldl_overwrite_miss
    (hmiss : ∀ (r : κ → α) (n : ι) (k : κ), g n ≠ some k → step r n k = r k)
    (k : κ) : ∀ (l : List ι) (x : κ → α), (∀ b ∈ l, g b ≠ some k) → l.foldl step x k = x k
  | [], _, _ => rfl
  | b :: l, x, h => by
      rw [List.foldl_cons,
        foldl_overwrite_miss hmiss k l (step x b) (fun c hc => h c (List.mem_cons_of_mem _ hc))]
      exact hmiss x b k (h b List.mem_cons_self)

/-- A fold of overwriting steps holds, at an entry where exactly one element `a` of the list
    lands, the value `v a` that element writes. -/
theorem foldl_overwrite_hit
    (hhit : ∀ (r : κ → α) (n : ι) (k : κ), g n = some k → step r n k = v n)
    (hmiss : ∀ (r : κ → α) (n : ι) (k : κ), g n ≠ some k → step r n k = r k)
    (k : κ) (a : ι) (ha : g a = some k) :
    ∀ (l : List ι) (x : κ → α), a ∈ l → (∀ b ∈ l, g b = some k → b = a) → l.foldl step x k = v a
  | [], _, hmem, _ => absurd hmem List.not_mem_nil
  | b :: l, x, hmem, huniq => by
      rw [List.foldl_cons]
      by_cases hal : a ∈ l
      · exact foldl_overwrite_hit hhit hmiss k a ha l (step x b) hal
          (fun c hc hgc => huniq c (List.mem_cons_of_mem _ hc) hgc)
      · have hba : a = b := by
          rcases List.mem_cons.1 hmem with h | h
          · exact h
          · exact absurd h hal
        subst hba
        rw [foldl_overwrite_miss step g hmiss k l (step x a) (fun c hc hgc =>
          hal (huniq c (List.mem_cons_of_mem _ hc) hgc ▸ hc))]
        exact hhit x a k ha

end Fold

/-! ### The replacing scatter -/

section Scatter

variable {s si u : Shape} {w : Nat} {α : Type}

/-- The replacing scatter at an operand index `i` where exactly one update index `a` lands holds
    the update's value at `a`. -/
theorem scatter_set_of_hit (d : ScatterDims s si u) (x : s.Idx → α) (idx : IVec si w)
    (upd : u.Idx → α) (i : s.Idx) (a : u.Idx) (ha : d.resultIdx? a idx = some i)
    (huniq : ∀ b : u.Idx, d.resultIdx? b idx = some i → b = a) :
    Host.scatter d (fun _ b => b) x idx upd i = upd a := by
  unfold Host.scatter
  refine (foldl_overwrite_hit _ (fun n => d.resultIdx? (u.rowMajor.symm n) idx)
    (fun n => upd (u.rowMajor.symm n)) ?_ ?_ i (u.rowMajor a) ?_ (List.finRange u.numel) x
    (List.mem_finRange _) ?_).trans (congrArg upd (u.rowMajor.symm_apply_apply a))
  · -- a step whose update index lands at `k` writes the update's value there
    intro r n k h
    dsimp only at h ⊢
    rw [h]
    exact if_pos rfl
  · -- a step whose update index does not land at `k` leaves entry `k`
    intro r n k h
    dsimp only at h ⊢
    generalize d.resultIdx? (u.rowMajor.symm n) idx = o at h ⊢
    cases o with
    | none => rfl
    | some j => exact if_neg fun hk => h (by rw [hk])
  · -- `a` is the update index at its own row-major position
    rw [u.rowMajor.symm_apply_apply]
    exact ha
  · -- only `a`'s position lands at `i`
    intro b _ hb
    rw [← huniq (u.rowMajor.symm b) hb, Equiv.apply_symm_apply]

/-- The replacing scatter at an operand index `i` where no update index lands keeps the operand's
    value. -/
theorem scatter_set_of_miss (d : ScatterDims s si u) (x : s.Idx → α) (idx : IVec si w)
    (upd : u.Idx → α) (i : s.Idx) (hmiss : ∀ b : u.Idx, d.resultIdx? b idx ≠ some i) :
    Host.scatter d (fun _ b => b) x idx upd i = x i := by
  unfold Host.scatter
  refine foldl_overwrite_miss _ (fun n => d.resultIdx? (u.rowMajor.symm n) idx) ?_ i
    (List.finRange u.numel) x (fun b _ => hmiss _)
  -- a step whose update index does not land at `k` leaves entry `k`
  intro r n k h
  dsimp only at h ⊢
  generalize d.resultIdx? (u.rowMajor.symm n) idx = o at h ⊢
  cases o with
  | none => rfl
  | some j => exact if_neg fun hk => h (by rw [hk])

end Scatter

end Cert.LibScatterSet
-- ==== Proof.LibScatterRows.lean ====
/-
  A replacing scatter of ROWS at one start index, read at an entry: an operand [R, C], ONE scatter index (a vector
  [1] holding the row 0), updates [r, C] with r ≤ R written as a window of whole rows starting at row 0. Update
  entry (p, c) lands at operand entry (p, c), so the result holds the updates on its first r rows and the operand
  below them. The lemmas are over an arbitrary dimension-number record whose fields are fixed by hypotheses, each
  closed by rfl on a program's own record.
-/
import Idealize.ShloMosaic.Lib.ValueIdx
import proofs.«402599_j56358560858587_4_alg».proof.Proof.LibScatterSet

noncomputable section

namespace Cert.LibScatterRows

open Idealize.ShloMosaic Idealize.ShloMosaic.ValueIdx

section Rows
variable {R r C : Nat} (d : ScatterDims ⟨2, ![R, C]⟩ ⟨1, ![1]⟩ ⟨2, ![r, C]⟩)
  (huw : d.updateWindowDims = [0, 1]) (hiw : d.insertedWindowDims = []) (hsd : d.scatterDimsToOperandDims = [0])
  (hiv : d.indexVectorDim = 0) (idx : IVec ⟨1, ![1]⟩ 32) (hidx : ∀ i, idx i = 0#32)

include hidx in
/-- Every window starts at 0 on both axes: the one start index is the word 0, and the entry axis is not indexed. -/
theorem start_zero (j : (⟨2, ![r, C]⟩ : Shape).Idx) (a : Fin 2) : d.start j idx a = 0 := by
  unfold ScatterDims.start
  split
  · rw [hidx]; rfl
  · rfl

include huw hiw hsd hiv in
/-- On the row axis the window coordinate is the update's row. -/
theorem window_row (p : Fin r) (c : Fin C) : d.window (ix2 p c) 0 = p.val := by
  obtain ⟨uw, iw, sd, iv, wf⟩ := d
  simp only at huw hiw hsd hiv
  subst huw hiw hsd hiv
  unfold ScatterDims.window
  rw [dif_pos (by simp [ScatterDims.sKept, Shape.kept])]
  rfl

include huw hiw hsd hiv in
/-- On the entry axis the window coordinate is the update's entry. -/
theorem window_entry (p : Fin r) (c : Fin C) : d.window (ix2 p c) 1 = c.val := by
  obtain ⟨uw, iw, sd, iv, wf⟩ := d
  simp only at huw hiw hsd hiv
  subst huw hiw hsd hiv
  unfold ScatterDims.window
  rw [dif_pos (by simp [ScatterDims.sKept, Shape.kept])]
  rfl

include huw hiw hsd hiv hidx in
/-- Update entry (p, c) lands at operand entry (p, c). -/
theorem resultIdx_rows (hrR : r ≤ R) (p : Fin r) (c : Fin C) :
    d.resultIdx? (ix2 p c) idx = some (ix2 (⟨p.val, Nat.lt_of_lt_of_le p.isLt hrR⟩ : Fin R) c) := by
  have h0 : d.start (ix2 p c) idx 0 + (d.window (ix2 p c) 0 : Int) = (p.val : Int) := by
    rw [start_zero d idx hidx, window_row d huw hiw hsd hiv]; omega
  have h1 : d.start (ix2 p c) idx 1 + (d.window (ix2 p c) 1 : Int) = (c.val : Int) := by
    rw [start_zero d idx hidx, window_entry d huw hiw hsd hiv]; omega
  have H : ∀ a : Fin 2, 0 ≤ d.start (ix2 p c) idx a + (d.window (ix2 p c) a : Int)
      ∧ d.start (ix2 p c) idx a + (d.window (ix2 p c) a : Int) < ((⟨2, ![R, C]⟩ : Shape).size a : Int) := by
    refine Fin.forall_fin_two.mpr ⟨?_, ?_⟩
    · rw [h0]
      have := p.isLt
      show 0 ≤ (p.val : Int) ∧ (p.val : Int) < (R : Int)
      omega
    · rw [h1]
      have := c.isLt
      show 0 ≤ (c.val : Int) ∧ (c.val : Int) < (C : Int)
      omega
  unfold ScatterDims.resultIdx?
  rw [dif_pos H]
  congr 1
  funext a
  apply Fin.ext
  revert a
  refine Fin.forall_fin_two.mpr ⟨?_, ?_⟩
  · show (d.start (ix2 p c) idx 0 + (d.window (ix2 p c) 0 : Int)).toNat = p.val
    rw [h0]; omega
  · show (d.start (ix2 p c) idx 1 + (d.window (ix2 p c) 1 : Int)).toNat = c.val
    rw [h1]; omega

include huw hiw hsd hiv hidx in
/-- THE SCATTER AT AN ENTRY: the update's entry on the first r rows, the operand's below them. -/
theorem scatter_rows_apply {α : Type} (x : (⟨2, ![R, C]⟩ : Shape).Idx → α) (upd : (⟨2, ![r, C]⟩ : Shape).Idx → α)
    (hrR : r ≤ R) (p : Fin R) (c : Fin C) :
    Host.scatter d (fun _ b => b) x idx upd (ix2 p c)
      = if h : p.val < r then upd (ix2 (⟨p.val, h⟩ : Fin r) c) else x (ix2 p c) := by
  have hland : ∀ b : (⟨2, ![r, C]⟩ : Shape).Idx,
      d.resultIdx? b idx = some (ix2 (⟨(b 0).val, Nat.lt_of_lt_of_le (b 0).isLt hrR⟩ : Fin R) (b 1)) := by
    intro b
    have hb := eq_ix2 b
    conv_lhs => rw [hb]
    exact resultIdx_rows d huw hiw hsd hiv idx hidx hrR (b 0) (b 1)
  by_cases h : p.val < r
  · rw [dif_pos h]
    refine LibScatterSet.scatter_set_of_hit d x idx upd (ix2 p c) (ix2 (⟨p.val, h⟩ : Fin r) c) ?_ ?_
    · exact resultIdx_rows d huw hiw hsd hiv idx hidx hrR ⟨p.val, h⟩ c
    · intro b hb
      rw [hland b] at hb
      have e := Option.some.inj hb
      have e0 : (b 0).val = p.val := congrArg (fun i : (⟨2, ![R, C]⟩ : Shape).Idx => (i 0).val) e
      have e1 : (b 1).val = c.val := congrArg (fun i : (⟨2, ![R, C]⟩ : Shape).Idx => (i 1).val) e
      rw [eq_ix2 b]
      funext a
      apply Fin.ext
      revert a
      exact Fin.forall_fin_two.mpr ⟨e0, e1⟩
  · rw [dif_neg h]
    refine LibScatterSet.scatter_set_of_miss d x idx upd (ix2 p c) ?_
    intro b hb
    rw [hland b] at hb
    have e := Option.some.inj hb
    have e0 : (b 0).val = p.val := congrArg (fun i : (⟨2, ![R, C]⟩ : Shape).Idx => (i 0).val) e
    have hb0 : (b 0).val < r := (b 0).isLt
    omega

end Rows

end Cert.LibScatterRows

end
-- ==== Proof.Staged.lean ====
/-
  What the pallas_call finds in the three arrays it stages, as functions of the arguments.

  Before the call the program lays the positions [2, 1024] out twice, as [2, 1024, 1] and as [2, 1, 1024] (two
  reshapes: the same entries), and builds its table of 256 rows: the 65 x 128 table plus the bias on every row,
  written over rows 0..64 of a 128 x 128 array of zeros (the "padded" table); then the padded table on rows
  0..127, and on rows 128..255 the padded table minus itself (a change of float format is the identity here).
  When every entry is a real number the lower half is zero, and so the one-hot contraction of the whole table at a
  bin d < 65 is row d of the table plus the bias.
-/
import proofs.«402599_j56358560858587_4_alg».proof.Proof.Gen.KernelIdeal.Frame
import proofs.«402599_j56358560858587_4_alg».proof.Proof.Bins
import proofs.«402599_j56358560858587_4_alg».proof.Proof.Finite
import proofs.«402599_j56358560858587_4_alg».proof.Proof.LibScatterRows
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.RelPos.Staged

open Cert.KernelIdeal Cert.KernelIdeal.Gen Idealize.ShloMosaic Idealize.ShloMosaic.TcCoe Idealize.ShloMosaic.ValueIdx
open Idealize.SL.Sem Idealize.ShloMosaic.StableHlo Cert.RelPos

/-! ## The padded table and the table of 256 rows, as functions of the table and the bias -/

/-- The table plus the bias, written over rows 0..64 of a 128 x 128 array of zeros. -/
def padded (W : FVec Ideal S65x128 .f32) (bias : FVec Ideal S128 .f32) : FVec Ideal S128x128 .f32 :=
  Host.scatter scatter_S128x128_S1_S65x128_01_n_0_0 (fun _ b => b)
    (broadcastInDim S128x128 ![] bcast_S_S128x128 (constant S_ .f32 0x00000000#32))
    (broadcastInDim S1 ![] bcast_S_S1 (constantI S_ 32 0#32))
    (addf W (broadcastInDim S65x128 ![0, 1] bcast_S1x128_S65x128_0_1 (broadcastInDim S1x128 ![1] bcast_S128_S1x128_1 bias)))

/-- The bias laid along every row of [65, 128]: entry (r, c) is the bias at c. -/
theorem bias_rows (bias : FVec Ideal S128 .f32) (r : Fin 65) (c : Fin 128) :
    broadcastInDim S65x128 ![0, 1] bcast_S1x128_S65x128_0_1 (broadcastInDim S1x128 ![1] bcast_S128_S1x128_1 bias) (ix2 r c)
      = bias (ix1 c) := by
  refine (broadcastInDim_apply _ bcast_S1x128_S65x128_0_1 _ (ix2 r c) (ix2 (0 : Fin 1) c) fun a => ?_).trans ?_
  · match a with
    | ⟨0, _⟩ => rfl
    | ⟨1, _⟩ => rfl
  · refine broadcastInDim_apply _ bcast_S128_S1x128_1 bias (ix2 (0 : Fin 1) c) (ix1 c) fun a => ?_
    match a with
    | ⟨0, _⟩ => rfl

/-- The padded table at (r, c): the table plus the bias on rows below 65, zero from row 65 on. -/
theorem padded_apply (W : FVec Ideal S65x128 .f32) (bias : FVec Ideal S128 .f32) (r c : Fin 128) :
    padded W bias (ix2 r c) = if h : r.val < 65 then W (ix2 (⟨r.val, h⟩ : Fin 65) c) + bias (ix1 c) else 0 := by
  unfold padded
  refine (LibScatterRows.scatter_rows_apply (R := 128) (r := 65) (C := 128) scatter_S128x128_S1_S65x128_01_n_0_0 rfl rfl rfl rfl _
    (fun _ => rfl) _ _ (by decide) r c).trans ?_
  by_cases h : r.val < 65
  · rw [dif_pos h, dif_pos h]
    show W (ix2 (⟨r.val, h⟩ : Fin 65) c) + _ = _
    rw [bias_rows]
  · rw [dif_neg h, dif_neg h]
    exact Ideal.ofBits_zero_f32

/-- Every entry of the padded table is a real number when the table's and the bias's are. -/
theorem padded_fin (W : FVec Ideal S65x128 .f32) (bias : FVec Ideal S128 .f32) (hW : ∀ i, IsFin (W i)) (hb : ∀ i, IsFin (bias i))
    (r c : Fin 128) : IsFin (padded W bias (ix2 r c)) := by
  rw [padded_apply]
  split
  · exact (hW _).add (hb _)
  · exact isFin_zero

/-- A 128 x 128 array on rows 0..127, and on rows 128..255 the array minus itself carried through two changes of
    float format. -/
def doubled (P : FVec Ideal S128x128 .f32) : FVec Ideal S256x128 .bf16 :=
  concatenate S256x128 0
    [⟨S128x128, truncf .bf16 P bitsLt_bf16_f32⟩,
     ⟨S128x128, truncf .bf16 (subf P (extf .f32 (truncf .bf16 P bitsLt_bf16_f32) bitsLt_bf16_f32)) bitsLt_bf16_f32⟩]
    concatenates_S128x128_S128x128_S256x128_d0

/-- Rows 0..127 are the array. -/
theorem doubled_low (P : FVec Ideal S128x128 .f32) (k : Fin 256) (hk : k.val < 128) (c : Fin 128) :
    doubled P (ix2 k c) = P (ix2 (⟨k.val, hk⟩ : Fin 128) c) := by
  unfold doubled
  refine (concatenate_pair_apply_left (t := S256x128) (s₁ := S128x128) (s₂ := S128x128) (0 : Fin 2) _ _
    concatenates_S128x128_S128x128_S256x128_d0 (ix2 k c) rfl (ix2 (⟨k.val, hk⟩ : Fin 128) c) fun b => ?_).trans ?_
  · match b with
    | ⟨0, _⟩ => rfl
    | ⟨1, _⟩ => rfl
  · exact truncf_apply P _ _

/-- Rows 128..255 are the array minus itself. -/
theorem doubled_high (P : FVec Ideal S128x128 .f32) (k : Fin 256) (hk : 128 ≤ k.val) (c : Fin 128) :
    doubled P (ix2 k c)
      = P (ix2 (⟨k.val - 128, by have := k.isLt; omega⟩ : Fin 128) c)
        - P (ix2 (⟨k.val - 128, by have := k.isLt; omega⟩ : Fin 128) c) := by
  unfold doubled
  refine (concatenate_pair_apply_right (t := S256x128) (s₁ := S128x128) (s₂ := S128x128) (0 : Fin 2) _ _
    concatenates_S128x128_S128x128_S256x128_d0 (ix2 k c) rfl rfl
    (ix2 (⟨k.val - 128, by have := k.isLt; omega⟩ : Fin 128) c) (fun b hb => ?_) ?_).trans ?_
  · match b with
    | ⟨0, _⟩ => exact absurd rfl hb
    | ⟨1, _⟩ => rfl
  · show k.val - 128 + 128 = k.val
    omega
  · rw [truncf_apply, subf_apply, extf_apply, truncf_apply]

/-- The table of 256 rows: the padded table doubled. -/
def table (W : FVec Ideal S65x128 .f32) (bias : FVec Ideal S128 .f32) : FVec Ideal S256x128 .bf16 := doubled (padded W bias)

theorem table_low (W : FVec Ideal S65x128 .f32) (bias : FVec Ideal S128 .f32) (k : Fin 256) (hk : k.val < 128) (c : Fin 128) :
    table W bias (ix2 k c) = padded W bias (ix2 (⟨k.val, hk⟩ : Fin 128) c) :=
  doubled_low (padded W bias) k hk c

theorem table_high (W : FVec Ideal S65x128 .f32) (bias : FVec Ideal S128 .f32) (k : Fin 256) (hk : 128 ≤ k.val) (c : Fin 128) :
    table W bias (ix2 k c)
      = padded W bias (ix2 (⟨k.val - 128, by have := k.isLt; omega⟩ : Fin 128) c)
        - padded W bias (ix2 (⟨k.val - 128, by have := k.isLt; omega⟩ : Fin 128) c) :=
  doubled_high (padded W bias) k hk c

/-- THE CONTRACTION OF THE TABLE: for real entries and a word d below 65, the one-hot row of d written twice,
    contracted against column c of the table of 256 rows, is entry (d, c) of the table plus the bias at c. -/
theorem table_sum (W : FVec Ideal S65x128 .f32) (bias : FVec Ideal S128 .f32) (hW : ∀ i, IsFin (W i)) (hb : ∀ i, IsFin (bias i))
    (d : BitVec 32) (hd : d.toNat < 65) (c : Fin 128) :
    ∑ k : Fin 256, hot d (BitVec.ofNat 32 (k.val % 128)) * table W bias (ix2 k c)
      = W (ix2 (⟨d.toNat, hd⟩ : Fin 65) c) + bias (ix1 c) := by
  rw [onehot_sum d hd (fun k => table W bias (ix2 k c)) (fun k hk => by
    show table W bias (ix2 k c) = 0
    rw [table_high W bias k hk c]
    exact (padded_fin W bias hW hb _ c).sub_self)]
  show table W bias (ix2 (⟨d.toNat, by omega⟩ : Fin 256) c) = _
  rw [table_low W bias _ (by show d.toNat < 128; omega) c, padded_apply]
  exact dif_pos hd

/-! ## The three staged arrays -/

variable (m : (ℓ : Loc nD τ sig) → Buf (Elt Ideal) ℓ)

/-- The positions as [2, 1024, 1], as the call finds them: entry (b, r, 0) is position (b, r). -/
theorem col_apply (c : Dev nD) (b : Fin 2) (r : Fin 1024) (z : Fin 1) :
    (V m c main_v0 : S2x1024x1.Idx → BitVec 32) (ix3 b r z) = (m ((c : Thread nD τ).loc main_arg0) : S2x1024.Idx → BitVec 32) (ix2 b r) := by
  have e : (V m c main_v0 : S2x1024x1.Idx → BitVec 32)
      = shapeCast S2x1024x1 (m ((c : Thread nD τ).loc main_arg0) : S2x1024.Idx → BitVec 32) shapeCasts_S2x1024_S2x1024x1 := by
    dsimp only [V, hostOps0]
    after_results
    rfl
  rw [e]
  exact shapeCast_apply (s := S2x1024) (t := S2x1024x1) _ _ (ix3 b r z) (ix2 b r) (by
    show (S2x1024.rowMajor (ix2 b r)).val = (S2x1024x1.rowMajor (ix3 b r z)).val
    rw [Shape.rowMajor_val_two, Shape.rowMajor_val_three]
    have hz : z.val = 0 := by omega
    show b.val * 1024 + r.val = (b.val * 1024 + r.val) * 1 + z.val
    omega)

/-- The positions as [2, 1, 1024], as the call finds them: entry (b, 0, r) is position (b, r). -/
theorem row_apply (c : Dev nD) (b : Fin 2) (z : Fin 1) (r : Fin 1024) :
    (V m c main_v1 : S2x1x1024.Idx → BitVec 32) (ix3 b z r) = (m ((c : Thread nD τ).loc main_arg0) : S2x1024.Idx → BitVec 32) (ix2 b r) := by
  have e : (V m c main_v1 : S2x1x1024.Idx → BitVec 32)
      = shapeCast S2x1x1024 (m ((c : Thread nD τ).loc main_arg0) : S2x1024.Idx → BitVec 32) shapeCasts_S2x1024_S2x1x1024 := by
    dsimp only [V, hostOps0]
    after_results
    rfl
  rw [e]
  exact shapeCast_apply (s := S2x1024) (t := S2x1x1024) _ _ (ix3 b z r) (ix2 b r) (by
    show (S2x1024.rowMajor (ix2 b r)).val = (S2x1x1024.rowMajor (ix3 b z r)).val
    rw [Shape.rowMajor_val_two, Shape.rowMajor_val_three]
    have hz : z.val = 0 := by omega
    show b.val * 1024 + r.val = (b.val * 1 + z.val) * 1024 + r.val
    omega)

/-- The table of 256 rows, as the call finds it. -/
theorem table_eq (c : Dev nD) :
    (V m c main_v12 : S256x128.Idx → EReal)
      = table (m ((c : Thread nD τ).loc main_arg1) : S65x128.Idx → EReal) (m ((c : Thread nD τ).loc main_arg2) : S128.Idx → EReal) := by
  dsimp only [V, hostOps0]
  after_results
  rfl

end Cert.RelPos.Staged

end
-- ==== Proof.Spec.lean ====
/-
  The one function both programs compute: entry (b, i, j, c) of the result is entry c of the table's row at the bin of
  positions (b, i) and (b, j), plus the bias at c.
-/
import proofs.«402599_j56358560858587_4_alg».proof.Proof.Bins

noncomputable section

namespace Cert.RelPos

open Idealize.ShloMosaic Idealize.ShloMosaic.ValueIdx

/-- The relative-position lookup: positions [2, 1024], a table [65, 128], a bias [128]; the result is [2, 1024, 1024, 128]. -/
def spec (pos : (⟨2, ![2, 1024]⟩ : Shape).Idx → BitVec 32) (W : (⟨2, ![65, 128]⟩ : Shape).Idx → EReal)
    (bias : (⟨1, ![128]⟩ : Shape).Idx → EReal) : (⟨4, ![2, 1024, 1024, 128]⟩ : Shape).Idx → EReal := fun i =>
  W (ix2 (binRow (pos (ix2 (i 0) (i 1))) (pos (ix2 (i 0) (i 2)))) (i 3)) + bias (ix1 (i 3))

end Cert.RelPos

end
-- ==== Proof.Final.lean ====
/-
  From what each grid point writes to the whole output array.

  Grid point (b, i, j) stages rows 128 i .. 128 i + 127 of column-array b of the positions, entries
  128 j .. 128 j + 127 of row-array b, and the whole table, and writes block (b, i, j) of the output: entry
  (0, p, q, c) of the block is entry (b, 128 i + p, 128 j + q, c) of the array. The body's store at (p, q, c) depends on
  column position p and row position q of the staged blocks, which are positions (b, 128 i + p) and (b, 128 j + q) of
  the arrays: so every block is the restriction of ONE function of the three staged arrays ("whole" below), the
  blocks cover the output, and the output ends holding that function.
-/
import proofs.«402599_j56358560858587_4_alg».proof.Proof.Gen.KernelIdeal.Value
import proofs.«402599_j56358560858587_4_alg».proof.Proof.Payload
import proofs.«402599_j56358560858587_4_alg».proof.Proof.Staged
import proofs.«402599_j56358560858587_4_alg».proof.Proof.Spec
import Idealize.ShloMosaic.Lib.Pipeline.Value

noncomputable section

open scoped BigOperators

namespace Cert.RelPos.Kernel

open Cert.KernelIdeal Cert.KernelIdeal.Gen Idealize.ShloMosaic Idealize.ShloMosaic.TcCoe Idealize.ShloMosaic.ValueIdx
open Idealize.SL.Sem Cert.RelPos
open Idealize.ShloMosaic.Pipeline (Dat)

variable (m : (ℓ : Loc nD τ sig) → Buf (Elt Ideal) ℓ) (ρ : Dev nD → PrngReg)

/-- The output as ONE function of the three staged arrays: entry (b, r, s, c) contracts the doubled one-hot row of
    the bin of column position (b, r) and row position (b, s) against column c of the table. -/
def cell (col : S2x1024x1.Idx → BitVec 32) (row : S2x1x1024.Idx → BitVec 32) (tab : S256x128.Idx → EReal)
    (b : Fin 2) (r s : Fin 1024) (c : Fin 128) : EReal :=
  ∑ k : Fin 256, hot (bin (col (ix3 b r (0 : Fin 1))) (row (ix3 b (0 : Fin 1) s))) (BitVec.ofNat 32 (k.val % 128))
    * tab (ix2 k c)

/-- The same over whole indices. -/
def whole (col : S2x1024x1.Idx → BitVec 32) (row : S2x1x1024.Idx → BitVec 32) (tab : S256x128.Idx → EReal) :
    S2x1024x1024x128.Idx → EReal := fun i => cell col row tab (i 0) (i 1) (i 2) (i 3)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The body's store at an entry y of the block, over the entry's own coordinates. -/
theorem store_at (x0 : Vec Ideal S1x128x1 .i32) (x1 : Vec Ideal S1x1x128 .i32) (x2 : Vec Ideal S256x128 .bf16)
    (y : S1x128x128x128.Idx) :
    k0_pay1 (F := Ideal) x0 x1 x2 y
      = ∑ k : Fin 256, hot (bin (x0 (ix3 (0 : Fin 1) (y 1) (0 : Fin 1))) (x1 (ix3 (0 : Fin 1) (0 : Fin 1) (y 2))))
          (BitVec.ofNat 32 (k.val % 128)) * x2 (ix2 k (y 3)) := by
  have hy : y = ix4 (y 0) (y 1) (y 2) (y 3) := eq_ix4 (n0 := 1) (n1 := 128) (n2 := 128) (n3 := 128) y
  exact (congrArg (k0_pay1 (F := Ideal) x0 x1 x2) hy).trans (Payload.pay_apply x0 x1 x2 (y 0) (y 1) (y 2) (y 3))

/-- The printed index maps over the grid: the column window follows the output's first two block coordinates, the row
    window its first and third, the table does not move; and the output's block coordinates stay in range. -/
theorem idx_facts : ∀ t : Fin cfg0.N,
    win0_0.index t (0 : Fin 3) = win0_3.index t (0 : Fin 4) ∧ win0_0.index t (1 : Fin 3) = win0_3.index t (1 : Fin 4)
    ∧ win0_0.index t (2 : Fin 3) = 0
    ∧ win0_1.index t (0 : Fin 3) = win0_3.index t (0 : Fin 4) ∧ win0_1.index t (1 : Fin 3) = 0
    ∧ win0_1.index t (2 : Fin 3) = win0_3.index t (2 : Fin 4)
    ∧ win0_2.index t (0 : Fin 2) = 0 ∧ win0_2.index t (1 : Fin 2) = 0
    ∧ win0_3.index t (0 : Fin 4) ≤ 1 ∧ win0_3.index t (1 : Fin 4) ≤ 7 ∧ win0_3.index t (2 : Fin 4) ≤ 7
    ∧ win0_3.index t (3 : Fin 4) = 0 :=
  (by decide +kernel : ∀ t : Fin grid0.N, _)

/-- Every block of the output is some grid point's. -/
theorem idx_onto : ∀ (q0 : Fin 2) (q1 : Fin 8) (q2 : Fin 8), ∃ t : Fin cfg0.N, win0_3.index t = ![q0.val, q1.val, q2.val, 0] :=
  (by decide +kernel : ∀ (q0 : Fin 2) (q1 : Fin 8) (q2 : Fin 8), ∃ t : Fin grid0.N, win0_3.index t = ![q0.val, q1.val, q2.val, 0])

/-- WHAT POINT t WRITES BACK is block t of the one function of the staged arrays. -/
theorem flushed_eq (c : Dev nD) (t : Fin cfg0.N) :
    (dats m 0 c).flushed 3 t
      = ((cfg0.win 3).blk t).view.read (Elt Ideal) (whole (V m c main_v0) (V m c main_v1) (V m c main_v12)) := by
  rw [Value.flushed3]
  unfold out0_3
  rw [View.canon_unit_zero zero4]
  simp only [View.ld_unit_zero (S := S1x128x1) zero3, View.ld_unit_zero (S := S1x1x128) zero3, View.ld_unit_zero (S := S256x128) zero2]
  obtain ⟨e0, e1, e2, e3, e4, e5, e6, e7, e8, e9, e10, e11⟩ := idx_facts t
  funext y
  show k0_pay1 (F := Ideal) (iblk m c 0 t) (iblk m c 1 t) (iblk m c 2 t) y
    = whole (V m c main_v0) (V m c main_v1) (V m c main_v12) (((cfg0.win 3).blk t).view.emb y)
  refine (store_at (iblk m c 0 t) (iblk m c 1 t) (iblk m c 2 t) y).trans ?_
  unfold whole cell
  refine Finset.sum_congr rfl fun k _ => ?_
  have hy0 : (y 0).val < 1 := (y 0).isLt
  have hy1 : (y 1).val < 128 := (y 1).isLt
  have hy2 : (y 2).val < 128 := (y 2).isLt
  have hy3 : (y 3).val < 128 := (y 3).isLt
  have hc : iblk m c 0 t (ix3 (0 : Fin 1) (y 1) (0 : Fin 1))
      = V m c main_v0 (ix3 ((((cfg0.win 3).blk t).view.emb y) 0) ((((cfg0.win 3).blk t).view.emb y) 1) (0 : Fin 1)) := by
    show V m c main_v0 (((cfg0.win 0).blk t).view.emb (ix3 (0 : Fin 1) (y 1) (0 : Fin 1))) = _
    refine congrArg (V m c main_v0) (funext fun a => Fin.ext ?_)
    match a with
    | ⟨0, _⟩ => show win0_0.index t (0 : Fin 3) * 1 + 1 * 0 = win0_3.index t (0 : Fin 4) * 1 + 1 * (y 0).val; omega
    | ⟨1, _⟩ => show win0_0.index t (1 : Fin 3) * 128 + 1 * (y 1).val = win0_3.index t (1 : Fin 4) * 128 + 1 * (y 1).val; omega
    | ⟨2, _⟩ => show win0_0.index t (2 : Fin 3) * 1 + 1 * 0 = 0; omega
  have hr : iblk m c 1 t (ix3 (0 : Fin 1) (0 : Fin 1) (y 2))
      = V m c main_v1 (ix3 ((((cfg0.win 3).blk t).view.emb y) 0) (0 : Fin 1) ((((cfg0.win 3).blk t).view.emb y) 2)) := by
    show V m c main_v1 (((cfg0.win 1).blk t).view.emb (ix3 (0 : Fin 1) (0 : Fin 1) (y 2))) = _
    refine congrArg (V m c main_v1) (funext fun a => Fin.ext ?_)
    match a with
    | ⟨0, _⟩ => show win0_1.index t (0 : Fin 3) * 1 + 1 * 0 = win0_3.index t (0 : Fin 4) * 1 + 1 * (y 0).val; omega
    | ⟨1, _⟩ => show win0_1.index t (1 : Fin 3) * 1 + 1 * 0 = 0; omega
    | ⟨2, _⟩ => show win0_1.index t (2 : Fin 3) * 128 + 1 * (y 2).val = win0_3.index t (2 : Fin 4) * 128 + 1 * (y 2).val; omega
  have ht : iblk m c 2 t (ix2 k (y 3)) = V m c main_v12 (ix2 k ((((cfg0.win 3).blk t).view.emb y) 3)) := by
    show V m c main_v12 (((cfg0.win 2).blk t).view.emb (ix2 k (y 3))) = _
    refine congrArg (V m c main_v12) (funext fun a => Fin.ext ?_)
    match a with
    | ⟨0, _⟩ => show win0_2.index t (0 : Fin 2) * 256 + 1 * k.val = k.val; omega
    | ⟨1, _⟩ => show win0_2.index t (1 : Fin 2) * 128 + 1 * (y 3).val = win0_3.index t (3 : Fin 4) * 128 + 1 * (y 3).val; omega
  rw [hc, hr, ht]

/-- An index of the output is in point t's block iff each coordinate is in the block's range on its axis. -/
theorem mem_blk (t : Fin cfg0.N) (i : S2x1024x1024x128.Idx) :
    i ∈ ((cfg0.win 3).blk t).view.set ↔ ∀ a : Fin 4, win0_3.index t a * S1x128x128x128.size a ≤ (i a).val
      ∧ (i a).val < win0_3.index t a * S1x128x128x128.size a + S1x128x128x128.size a := by
  show i ∈ ((View.whole main_v13).slice (win0_3.rect t)).set ↔ _
  rw [View.set_slice_whole, Rect.mem_set_unit]
  exact Iff.rfl

/-- Every index of the output lies in some point's block: the point whose block coordinates are the index's row over
    128 and column over 128. -/
theorem covered (i : S2x1024x1024x128.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1024 := (i 2).isLt
  have hi3 : (i 3).val < 128 := (i 3).isLt
  obtain ⟨t, ht⟩ := idx_onto ⟨(i 0).val, hi0⟩ ⟨(i 1).val / 128, by omega⟩ ⟨(i 2).val / 128, by omega⟩
  have q0 : win0_3.index t (0 : Fin 4) = (i 0).val := congrFun ht 0
  have q1 : win0_3.index t (1 : Fin 4) = (i 1).val / 128 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 128 ≤ (i 1).val ∧ (i 1).val < win0_3.index t (1 : Fin 4) * 128 + 128; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- THE OUTPUT ARRAY after the run is the one function of the staged arrays. -/
theorem final (c : Dev nD) :
    (dats m 0 c).arrAt 3 cfg0.N = whole (V m c main_v0) (V m c main_v1) (V m c main_v12) :=
  (dats m 0 c).arrAt_eq_of_cover 3 (whole (V m c main_v0) (V m c main_v1) (V m c main_v12))
    (fun t _ => flushed_eq m c t) covered

/-- One entry: for a table and a bias of real numbers, the contraction at (b, r, s, c) over the staged arrays is entry c
    of the table's row at the bin of positions (b, r) and (b, s), plus the bias at c. -/
theorem cell_eq (c : Dev nD) (hW : ∀ i, IsFin ((m ((c : Thread nD τ).loc main_arg1) : S65x128.Idx → EReal) i))
    (hb : ∀ i, IsFin ((m ((c : Thread nD τ).loc main_arg2) : S128.Idx → EReal) i))
    (b : Fin 2) (r s : Fin 1024) (e : Fin 128) :
    cell (V m c main_v0) (V m c main_v1) (V m c main_v12) b r s e
      = spec (m ((c : Thread nD τ).loc main_arg0)) (m ((c : Thread nD τ).loc main_arg1)) (m ((c : Thread nD τ).loc main_arg2))
          (ix4 b r s e) := by
  unfold cell
  rw [Staged.col_apply, Staged.row_apply, Staged.table_eq]
  exact Staged.table_sum _ _ hW hb _ (bin_lt _ _) e

/-- For a table and a bias of real numbers, the one function of the staged arrays is the relative-position lookup of
    the arguments: the staged positions are the positions, and the contraction of the table of 256 rows at a bin is
    the table's row at the bin plus the bias. -/
theorem whole_eq_spec (c : Dev nD) (hW : ∀ i, IsFin ((m ((c : Thread nD τ).loc main_arg1) : S65x128.Idx → EReal) i))
    (hb : ∀ i, IsFin ((m ((c : Thread nD τ).loc main_arg2) : S128.Idx → EReal) i)) :
    whole (V m c main_v0) (V m c main_v1) (V m c main_v12)
      = spec (m ((c : Thread nD τ).loc main_arg0)) (m ((c : Thread nD τ).loc main_arg1)) (m ((c : Thread nD τ).loc main_arg2)) := by
  funext i
  have hi : i = ix4 (i 0) (i 1) (i 2) (i 3) := eq_ix4 (n0 := 2) (n1 := 1024) (n2 := 1024) (n3 := 128) i
  exact (cell_eq m c hW hb (i 0) (i 1) (i 2) (i 3)).trans (congrArg (spec (m ((c : Thread nD τ).loc main_arg0))
    (m ((c : Thread nD τ).loc main_arg1)) (m ((c : Thread nD τ).loc main_arg2))) hi.symm)

/-- THE KERNEL'S RUN, READ: for a table and a bias of real numbers the result array ends at the relative-position lookup
    of the arguments, the arguments unchanged. -/
theorem run (hfin : ∀ c : Dev nD, (∀ i, IsFin ((m ((c : Thread nD τ).loc main_arg1) : S65x128.Idx → EReal) i))
      ∧ (∀ i, IsFin ((m ((c : Thread nD τ).loc main_arg2) : S128.Idx → EReal) i))) :
    θ_run defs (onTc (τ := τ) (main (F := Ideal))) ⟨m, fun _ => 0, ρ⟩ fun r => ∀ c : Dev nD,
      r.2.mem ((c : Thread nD τ).loc main_v13)
        = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((final m c).trans (whole_eq_spec m c (hfin c).1 (hfin c).2)), (h c).2⟩)
    (Value.run_blocks m ρ)

end Cert.RelPos.Kernel

end
-- ==== Proof.LibGatherRows.lean ====
/-
  The host's gather READ AT AN INDEX for a take of ROWS of a table: an operand [N, C] (N rows of C entries), start
  indices [A, B, D, 1] and a result [A, B, D, C]; the row axis is collapsed and start-indexed, the entry axis is the
  one offset axis (the result's last), the index vector sits on the last axis of the start indices. The lemma is
  over an arbitrary dimension-number record whose fields are fixed by hypotheses, each closed by rfl on a program's
  own record.

  gather_rows: the gather at (a, b, e, c), when position (a, b, e)'s start index is in range, is the operand at
  entry c of the row that index names (in range nothing is clamped).
-/
import Idealize.ShloMosaic.Lib.ValueIdx
import Idealize.ShloMosaic.Lib.StableHlo.Predicate

noncomputable section

namespace Cert.LibGatherRows

open Idealize.ShloMosaic Idealize.ShloMosaic.ValueIdx

section Rows
variable {N C A B D : Nat} (d : GatherDims ⟨2, ![N, C]⟩ ⟨4, ![A, B, D, 1]⟩ ⟨4, ![A, B, D, C]⟩)
  (hoff : d.offsetDims = [3]) (hcoll : d.collapsedSliceDims = [0]) (hob : d.operandBatchingDims = [])
  (hsim : d.startIndexMap = [0]) (hivd : d.indexVectorDim = 3) (a : Fin A) (b : Fin B) (e : Fin D) (c : Fin C)
include hoff hcoll hob hsim hivd

/-- Result position (a, b, e, c) reads its start index at (a, b, e, 0) of the start indices. -/
theorem siIdx_rows (k : Fin d.startIndexMap.length) : d.siIdx (ix4 a b e c) k = ix4 a b e (0 : Fin 1) := by
  obtain ⟨od, cd, ob, sb, sm, iv, ss, wf⟩ := d
  simp only at hoff hcoll hob hsim hivd
  subst hoff hcoll hob hsim hivd
  have hk : k.val = 0 := by
    have := k.isLt
    simpa using this
  funext x
  apply Fin.ext
  match x with
  | ⟨0, _⟩ => rfl
  | ⟨1, _⟩ => rfl
  | ⟨2, _⟩ => rfl
  | ⟨3, _⟩ => exact hk

/-- On the entry axis the offset coordinate is the result's last coordinate. -/
theorem offCoord_rows_one : d.offCoord (ix4 a b e c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end Rows

/-- The gather of ROWS from [N, C], N < 2³¹, at 32-bit start indices [A, B, D, 1] (the row axis collapsed and
    start-indexed, the entry axis the one offset axis, the index vector on the last axis), read at (a, b, e, c) when
    position (a, b, e)'s start index is in range: the operand at entry c of that row. -/
theorem gather_rows {α : Type} {N C A B D : Nat} (d : GatherDims ⟨2, ![N, C]⟩ ⟨4, ![A, B, D, 1]⟩ ⟨4, ![A, B, D, C]⟩)
    (hoff : d.offsetDims = [3]) (hcoll : d.collapsedSliceDims = [0]) (hob : d.operandBatchingDims = [])
    (hsim : d.startIndexMap = [0]) (hivd : d.indexVectorDim = 3)
    (x : (⟨2, ![N, C]⟩ : Shape).Idx → α) (idx : IVec ⟨4, ![A, B, D, 1]⟩ 32) (hN : N < 2 ^ 31)
    (a : Fin A) (b : Fin B) (e : Fin D) (c : Fin C)
    (hr : (idx (ix4 a b e (0 : Fin 1))).toNat < N) :
    Host.gather d x idx (ix4 a b e c) = x (ix2 ⟨(idx (ix4 a b e (0 : Fin 1))).toNat, hr⟩ c) := by
  have hb : ∀ ax, ax ∉ d.operandBatchingDims := by
    intro ax
    rw [hob]
    exact List.not_mem_nil
  have hsl : d.sliceSizes 0 = 1 := d.slice_collapsed 0 (by rw [hcoll]; exact List.mem_singleton.mpr rfl)
  unfold Host.gather
  congr 1
  funext ax
  apply Fin.ext
  revert ax
  refine Fin.forall_fin_two.mpr ⟨?_, ?_⟩
  · show d.start (ix4 a b e c) idx 0 + d.batchCoord (ix4 a b e c) 0 + d.offCoord (ix4 a b e c) 0
      = (idx (ix4 a b e (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix4 a b e (0 : Fin 1))).toNat (N - 1) + 0 + 0 = _
    omega
  · show d.start (ix4 a b e c) idx 1 + d.batchCoord (ix4 a b e c) 1 + d.offCoord (ix4 a b e c) 1 = c.val
    rw [d.batchCoord_eq_zero _ _ (hb _), offCoord_rows_one d hoff hcoll hob hsim hivd]
    unfold GatherDims.start
    rw [dif_neg (by rw [hsim]; simp)]
    omega

end Cert.LibGatherRows

end
-- ==== Proof.RefValue.lean ====
/-
  What the reference computes, read at one entry.

  The reference subtracts position j from position i of row b (two broadcasts of the positions to [2, 1024, 1024]),
  clips the difference to [-32, 32], adds 32: entry (b, i, j) is the bin of positions (b, i) and (b, j). Before it
  takes rows of the table it adds 65 to a negative bin; a bin is never negative, so the row taken is the bin. The take
  reads entry c of that row; the bias at c is added.
-/
import proofs.«402599_j56358560858587_4_alg».proof.Proof.Gen.ReferenceIdeal.Read
import proofs.«402599_j56358560858587_4_alg».proof.Proof.Bins
import proofs.«402599_j56358560858587_4_alg».proof.Proof.Spec
import proofs.«402599_j56358560858587_4_alg».proof.Proof.LibGatherRows
import Idealize.ShloMosaic.Lib.ValueIdx
import Idealize.ShloMosaic.Lib.StableHlo.Predicate

noncomputable section

namespace Cert.RelPos.Ref

open Cert.ReferenceIdeal Cert.ReferenceIdeal.Gen Cert.ReferenceIdeal.Read Idealize.ShloMosaic Idealize.ShloMosaic.ValueIdx Cert.RelPos

/-- The clipped, shifted difference at (b, i, j) is the bin of positions (b, i) and (b, j). -/
theorem shifted_apply (x0 : IVec S2x1024 32) (b : Fin 2) (i j : Fin 1024) :
    val_main_v7 (F := Ideal) x0 (ix3 b i j) = bin (x0 (ix2 b i)) (x0 (ix2 b j)) := by
  rw [val_main_v7_apply, val_main_v5_apply, val_main_call0_v4_apply, val_main_call0_v3_apply, val_main_c_0_apply,
    val_main_call0_v2_apply, val_main_call0_v1_apply, val_main_call0_v0_apply, val_main_c_apply, val_main_v4_apply,
    val_main_v2_apply, val_main_v0_apply, val_main_v3_apply, val_main_v1_apply, val_main_v6_apply, val_main_c_1_apply]
  have e1 : idx_main_v0 (idx_main_v2 (ix3 b i j)) = ix2 b i := by
    funext a
    match a with
    | ⟨0, _⟩ => rfl
    | ⟨1, _⟩ => rfl
  have e2 : idx_main_v1 (idx_main_v3 (ix3 b i j)) = ix2 b j := by
    funext a
    match a with
    | ⟨0, _⟩ => rfl
    | ⟨1, _⟩ => rfl
  rw [e1, e2]
  rfl

/-- A bin is not negative as a signed word. -/
theorem bin_not_neg (a b : BitVec 32) : IntOp.cmpi .slt (bin a b) 0#32 = 0#1 := by
  have hlt := bin_lt a b
  have h : (bin a b).slt 0#32 = false := by
    rw [Bool.eq_false_iff]
    intro h
    have h' := BitVec.slt_iff_toInt_lt.mp h
    rw [StableHlo.Predicate.toInt_eq_toNat_of_lt (by omega)] at h'
    have h0 : (0#32 : BitVec 32).toInt = 0 := by decide
    rw [h0] at h'
    omega
  show BitVec.ofBool ((bin a b).slt 0#32) = 0#1
  rw [h]
  rfl

/-- The row number handed to the take at (b, i, j) is the bin: the wrap of negative numbers never applies. -/
theorem rowno_apply (x0 : IVec S2x1024 32) (b : Fin 2) (i j : Fin 1024) :
    val_main_v12 (F := Ideal) x0 (ix3 b i j) = bin (x0 (ix2 b i)) (x0 (ix2 b j)) := by
  rw [val_main_v12_apply, val_main_v9_apply, shifted_apply, val_main_v8_apply, val_main_c_2_apply, bin_not_neg]
  exact select_zero _ _

/-- THE REFERENCE AT AN ENTRY: entry c of the table's row at the bin of positions (b, i) and (b, j), plus the bias at c. -/
theorem ref_apply (x0 : IVec S2x1024 32) (x1 : FVec Ideal S65x128 .f32) (x2 : FVec Ideal S128 .f32)
    (b : Fin 2) (i j : Fin 1024) (c : Fin 128) :
    val_main_v17 (F := Ideal) x0 x1 x2 (ix4 b i j c)
      = x1 (ix2 (binRow (x0 (ix2 b i)) (x0 (ix2 b j))) c) + x2 (ix1 c) := by
  have hidx : val_main_v13 (F := Ideal) x0 (ix4 b i j (0 : Fin 1)) = bin (x0 (ix2 b i)) (x0 (ix2 b j)) := by
    rw [val_main_v13_apply]
    have e : idx_main_v13 (ix4 b i j (0 : Fin 1)) = ix3 b i j := by
      funext a
      match a with
      | ⟨0, _⟩ => rfl
      | ⟨1, _⟩ => rfl
      | ⟨2, _⟩ => rfl
    rw [e, rowno_apply]
  have hr : (val_main_v13 (F := Ideal) x0 (ix4 b i j (0 : Fin 1))).toNat < 65 := by
    rw [hidx]
    exact bin_lt _ _
  have hrow : (⟨(val_main_v13 (F := Ideal) x0 (ix4 b i j (0 : Fin 1))).toNat, hr⟩ : Fin 65)
      = binRow (x0 (ix2 b i)) (x0 (ix2 b j)) := by
    apply Fin.ext
    show (val_main_v13 (F := Ideal) x0 (ix4 b i j (0 : Fin 1))).toNat = (bin (x0 (ix2 b i)) (x0 (ix2 b j))).toNat
    rw [hidx]
  have e15 : idx_main_v15 (idx_main_v16 (ix4 b i j c)) = ix1 c := by
    funext a
    match a with
    | ⟨0, _⟩ => rfl
  rw [val_main_v17_apply, val_main_v16_apply, val_main_v15_apply, e15]
  unfold val_main_v14
  rw [LibGatherRows.gather_rows (N := 65) (C := 128) (A := 2) (B := 1024) (D := 1024)
    gather_S65x128_S2x1024x1024x1_S2x1024x1024x128_3_0_n_n_0_3_1128 rfl rfl rfl rfl rfl x1 _ (by decide) b i j c hr, hrow]
  rfl

/-- The reference's result is the relative-position lookup of its arguments. -/
theorem ref_eq_spec (x0 : IVec S2x1024 32) (x1 : FVec Ideal S65x128 .f32) (x2 : FVec Ideal S128 .f32) :
    val_main_v17 (F := Ideal) x0 x1 x2 = spec x0 x1 x2 := by
  funext i
  have hi : i = ix4 (i 0) (i 1) (i 2) (i 3) := eq_ix4 (n0 := 2) (n1 := 1024) (n2 := 1024) (n3 := 128) i
  exact (congrArg (val_main_v17 (F := Ideal) x0 x1 x2) hi).trans (ref_apply x0 x1 x2 (i 0) (i 1) (i 2) (i 3))

end Cert.RelPos.Ref

end
-- ==== Proof.lean ====
/-
  A relative-position embedding lookup, over the extended reals.

  Both programs take positions [2, 1024] (32-bit integers), a table [65, 128] and a bias [128], and return
  [2, 1024, 1024, 128]: entry (b, i, j, c) is entry c of the table's row at the BIN of positions (b, i) and (b, j) -
  their difference clipped to [-32, 32], plus 32, a number in [0, 64] - plus the bias at c.

  The reference takes the row by a gather. The kernel takes it by a matrix product: per block of 128 x 128 pairs
  (i, j) it builds the one-hot row of the bin (1 at the column equal to the bin, 0 elsewhere, 128 columns), writes
  it twice side by side, and multiplies by a table of 256 rows prepared on the host - rows 0..127 the table plus
  the bias on rows 0..64 and zeros below, rows 128..255 that array minus itself carried through two changes of
  float format (the identity on the extended reals). Over the extended reals x - x = 0 needs x to be a real number:
  this is where the precondition (every float input finite) is used. Then the lower half of the 256 rows is zero,
  every term of the product's sum but one is 0 times an entry or 1 times 0, and the one left is 1 times the
  table's entry at the bin plus the bias: the reference's value.

  The modules: Bins (the bin is below 65; the one-hot contraction), Spec (the common result), Finite (the
  precondition gives real entries), Payload (the kernel body's store at an entry), Staged (the arrays the call
  stages, as functions of the arguments; the contraction of the 256-row table), Final (from blocks to the whole
  output array, and the kernel's run), RefValue (the reference at an entry).
-/
import proofs.«402599_j56358560858587_4_alg».proof.Defs
import proofs.«402599_j56358560858587_4_alg».proof.Proof.Gen.Kernel
import proofs.«402599_j56358560858587_4_alg».proof.Proof.Gen.Kernel.Skeleton
import proofs.«402599_j56358560858587_4_alg».proof.Proof.Gen.Kernel.Launch
import proofs.«402599_j56358560858587_4_alg».proof.Proof.Gen.Kernel.Points
import proofs.«402599_j56358560858587_4_alg».proof.Proof.Gen.Kernel.Frame
import proofs.«402599_j56358560858587_4_alg».proof.Proof.Gen.KernelIdeal
import proofs.«402599_j56358560858587_4_alg».proof.Proof.Gen.KernelIdeal.Skeleton
import proofs.«402599_j56358560858587_4_alg».proof.Proof.Gen.KernelIdeal.Launch
import proofs.«402599_j56358560858587_4_alg».proof.Proof.Gen.KernelIdeal.Points
import proofs.«402599_j56358560858587_4_alg».proof.Proof.Gen.KernelIdeal.Frame
import proofs.«402599_j56358560858587_4_alg».proof.Proof.Gen.ReferenceIdeal
import proofs.«402599_j56358560858587_4_alg».proof.Proof.Gen.Pre_finite_inputs
import proofs.«402599_j56358560858587_4_alg».proof.Proof.Gen.KernelIdeal.Value
import proofs.«402599_j56358560858587_4_alg».proof.Proof.Gen.ReferenceIdeal.Run
import proofs.«402599_j56358560858587_4_alg».proof.Proof.Gen.ReferenceIdeal.Read
import proofs.«402599_j56358560858587_4_alg».proof.Proof.Finite
import proofs.«402599_j56358560858587_4_alg».proof.Proof.Final
import proofs.«402599_j56358560858587_4_alg».proof.Proof.RefValue
import Idealize.ShloMosaic.Adequacy
import Idealize.ShloMosaic.Init

noncomputable section

namespace Cert.Proof

open Idealize.ShloMosaic Idealize.SL.Sem Cert.RelPos

/-- The word-level kernel runs and keeps its arguments: its generated frame. -/
theorem frame_kernel : Cert.frame_Kernel := fun m ρ _ => Cert.Kernel.Gen.frame m ρ

/-- The idealized kernel runs and keeps its arguments: its generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the relative-position lookup of the arguments: the kernel because, its float
    inputs being real numbers, its one-hot product against the 256-row table is the table's row at the bin plus the
    bias; the reference because its gather reads that row. -/
theorem algebraic : Cert.algebraic_KernelIdeal_ReferenceIdeal := by
  intro m ρ m' ρ' hpre hagree
  have hfin := fun c : Dev Cert.KernelIdeal.nD => finite_of_pre _ _ _ (hpre c)
  refine ⟨fun c => spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.RelPos.Kernel.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RelPos.Ref.ref_eq_spec, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
